-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x8x32x32x1024 : Shape := ⟨5, ![1, 8, 32, 32, 1024]⟩
abbrev S1024x3584 : Shape := ⟨2, ![1024, 3584]⟩
abbrev S3584 : Shape := ⟨1, ![3584]⟩
abbrev S_ : Shape := ⟨0, ![]⟩

class Facts : Prop where
  bcast_S_S1x8x32x32x1024 : S_.BroadcastsInDim S1x8x32x32x1024 (![] : Fin 0 → Fin S1x8x32x32x1024.rank)
  reducesTo_S1x8x32x32x1024_S_d0_1_2_3_4 : S1x8x32x32x1024.ReducesTo [0, 1, 2, 3, 4] S_
  h_S_ : 0 < S_.numel
  bcast_S_S1024x3584 : S_.BroadcastsInDim S1024x3584 (![] : Fin 0 → Fin S1024x3584.rank)
  reducesTo_S1024x3584_S_d0_1 : S1024x3584.ReducesTo [0, 1] S_
  bcast_S_S3584 : S_.BroadcastsInDim S3584 (![] : Fin 0 → Fin S3584.rank)
  reducesTo_S3584_S_d0 : S3584.ReducesTo [0] S_

variable [Facts]

def fn {F : FTy → Type} [FloatOps F] (main_arg0 : FVec F S1x8x32x32x1024 .f32) (main_arg1 : FVec F S1024x3584 .f32) (main_arg2 : FVec F S3584 .f32) : IVec S_ 1 :=
  let main_v0 : FVec F S1x8x32x32x1024 .f32 := Host.absf main_arg0
  let main_cst : FVec F S_ .f32 := constant S_ .f32 0x7F800000#32
  let main_v1 : FVec F S1x8x32x32x1024 .f32 := broadcastInDim S1x8x32x32x1024 ![] bcast_S_S1x8x32x32x1024 main_cst
  let main_v2 : IVec S1x8x32x32x1024 1 := cmpf .olt main_v0 main_v1
  let main_c : IVec S_ 1 := constantI S_ 1 1#1
  let main_v3 : IVec S_ 1 := (fun x v => Host.reduce IntOp.andi x v reducesTo_S1x8x32x32x1024_S_d0_1_2_3_4 h_S_) main_v2 main_c
  let main_v4 : FVec F S1024x3584 .f32 := Host.absf main_arg1
  let main_cst_0 : FVec F S_ .f32 := constant S_ .f32 0x7F800000#32
  let main_v5 : FVec F S1024x3584 .f32 := broadcastInDim S1024x3584 ![] bcast_S_S1024x3584 main_cst_0
  let main_v6 : IVec S1024x3584 1 := cmpf .olt main_v4 main_v5
  let main_c_1 : IVec S_ 1 := constantI S_ 1 1#1
  let main_v7 : IVec S_ 1 := (fun x v => Host.reduce IntOp.andi x v reducesTo_S1024x3584_S_d0_1 h_S_) main_v6 main_c_1
  let main_v8 : IVec S_ 1 := andi main_v3 main_v7
  let main_v9 : FVec F S3584 .f32 := Host.absf main_arg2
  let main_cst_2 : FVec F S_ .f32 := constant S_ .f32 0x7F800000#32
  let main_v10 : FVec F S3584 .f32 := broadcastInDim S3584 ![] bcast_S_S3584 main_cst_2
  let main_v11 : IVec S3584 1 := cmpf .olt main_v9 main_v10
  let main_c_3 : IVec S_ 1 := constantI S_ 1 1#1
  let main_v12 : IVec S_ 1 := (fun x v => Host.reduce IntOp.andi x v reducesTo_S3584_S_d0 h_S_) main_v11 main_c_3
  let main_v13 : IVec S_ 1 := andi main_v8 main_v12
  main_v13
-- ==== Kernel.lean ====
abbrev S1x8x32x32x1024 : Shape := ⟨5, ![1, 8, 32, 32, 1024]⟩
abbrev S1024x3584 : Shape := ⟨2, ![1024, 3584]⟩
abbrev S3584 : Shape := ⟨1, ![3584]⟩
abbrev S8192x1024 : Shape := ⟨2, ![8192, 1024]⟩
abbrev S1x3584 : Shape := ⟨2, ![1, 3584]⟩
abbrev S8192x3584 : Shape := ⟨2, ![8192, 3584]⟩
abbrev S512x1024 : Shape := ⟨2, ![512, 1024]⟩
abbrev S512x3584 : Shape := ⟨2, ![512, 3584]⟩
abbrev S1x8x32x32x14x4x8x8 : Shape := ⟨8, ![1, 8, 32, 32, 14, 4, 8, 8]⟩
abbrev S1x8x4x32x8x32x8x14 : Shape := ⟨8, ![1, 8, 4, 32, 8, 32, 8, 14]⟩
abbrev S1x32x256x256x14 : Shape := ⟨5, ![1, 32, 256, 256, 14]⟩

abbrev nBuf : Space → Nat
  | .hbm => 11
  | .vmem => 6
  | .smem => 0
  | _ => 0

abbrev bufTy : (tb : Table) → Fin (tcTables nBuf tb) → BufTy
  | .hbm, ⟨0, _⟩ => ⟨S1x8x32x32x1024, .f32⟩
  | .hbm, ⟨1, _⟩ => ⟨S1024x3584, .f32⟩
  | .hbm, ⟨2, _⟩ => ⟨S3584, .f32⟩
  | .hbm, ⟨3, _⟩ => ⟨S8192x1024, .f32⟩
  | .hbm, ⟨4, _⟩ => ⟨S8192x1024, .bf16⟩
  | .hbm, ⟨5, _⟩ => ⟨S1024x3584, .bf16⟩
  | .hbm, ⟨6, _⟩ => ⟨S1x3584, .f32⟩
  | .hbm, ⟨7, _⟩ => ⟨S8192x3584, .f32⟩
  | .hbm, ⟨8, _⟩ => ⟨S1x8x32x32x14x4x8x8, .f32⟩
  | .hbm, ⟨9, _⟩ => ⟨S1x8x4x32x8x32x8x14, .f32⟩
  | .hbm, ⟨10, _⟩ => ⟨S1x32x256x256x14, .f32⟩
  | .local _ .vmem, ⟨0, _⟩ => ⟨S512x1024, .bf16⟩
  | .local _ .vmem, ⟨1, _⟩ => ⟨S512x1024, .bf16⟩
  | .local _ .vmem, ⟨2, _⟩ => ⟨S1024x3584, .bf16⟩
  | .local _ .vmem, ⟨3, _⟩ => ⟨S1x3584, .f32⟩
  | .local _ .vmem, ⟨4, _⟩ => ⟨S512x3584, .f32⟩
  | .local _ .vmem, ⟨5, _⟩ => ⟨S512x3584, .f32⟩
  | _, _ => ⟨S1x8x32x32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3584 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S1x8x32x32x1024_S8192x1024 : S1x8x32x32x1024.ShapeCasts S8192x1024
  bitsLt_bf16_f32 : FTy.bits .bf16 < FTy.bits .f32
  shapeCasts_S3584_S1x3584 : S3584.ShapeCasts S1x3584
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x3584_S1024x3584_0_0 : ∀ a, (![0, 0] : Fin 2 → Nat) a + S1024x3584.size a ≤ S1024x3584.size a
  h_S1024x3584 : 0 < S1024x3584.numel
  shapeCasts_S1024x3584_S1024x3584 : S1024x3584.ShapeCasts S1024x3584
  inb_S1x3584_S1x3584_0_0 : ∀ a, (![0, 0] : Fin 2 → Nat) a + S1x3584.size a ≤ S1x3584.size a
  h_S1x3584 : 0 < S1x3584.numel
  shapeCasts_S1x3584_S1x3584 : S1x3584.ShapeCasts S1x3584
  broadcasts_S1x3584_S512x3584 : S1x3584.Broadcasts S512x3584
  inb_S512x3584_S512x3584_0_0 : ∀ a, (![0, 0] : Fin 2 → Nat) a + S512x3584.size a ≤ S512x3584.size a
  h_S512x3584 : 0 < S512x3584.numel
  shapeCasts_S8192x3584_S1x8x32x32x14x4x8x8 : S8192x3584.ShapeCasts S1x8x32x32x14x4x8x8
  transposes_S1x8x32x32x14x4x8x8_S1x8x4x32x8x32x8x14_0_1_5_2_6_3_7_4 : S1x8x32x32x14x4x8x8.Transposes [0, 1, 5, 2, 6, 3, 7, 4] S1x8x4x32x8x32x8x14
  shapeCasts_S1x8x4x32x8x32x8x14_S1x32x256x256x14 : S1x8x4x32x8x32x8x14.ShapeCasts S1x32x256x256x14
  dot_S512x1024_S1024x3584_S512x3584_1_0_0_1_n_n_wf : DotDims.WF S512x1024 S1024x3584 S512x3584 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .bf16 = 32 ∨ (Rect.block (s := S8192x1024) S512x1024.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3584.size a ≤ S1024x3584.size a
  hwx0_1 : ∀ i : grid0.Coords, EltTy.bits .bf16 = 32 ∨ (Rect.block (s := S1024x3584) S1024x3584.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3584.size a ≤ S1x3584.size a
  hwx0_2 : ∀ i : grid0.Coords, EltTy.bits .f32 = 32 ∨ (Rect.block (s := S1x3584) S1x3584.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x3584.size a ≤ S8192x3584.size a
  hwx0_3 : ∀ i : grid0.Coords, EltTy.bits .f32 = 32 ∨ (Rect.block (s := S8192x3584) S512x3584.size (cc0_transform_3 i) (hinb0_3 i)).WholeWords (EltTy.packing .f32)

variable [Facts₀]

def dot_S512x1024_S1024x3584_S512x3584_1_0_0_1_n_n : DotDims S512x1024 S1024x3584 S512x3584 where
  lhsContracting := [1]
  rhsContracting := [0]
  lhsNonContracting := [0]
  rhsNonContracting := [1]
  lhsBatch := []
  rhsBatch := []
  wf := dot_S512x1024_S1024x3584_S512x3584_1_0_0_1_n_n_wf

abbrev win0_0 : Pipeline.Window sig grid0 :=
  Pipeline.Window.ofSpec (Memref.whole main_v1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x3584.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x3584.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x3584.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1x8x32x32x1024 : Shape := ⟨5, ![1, 8, 32, 32, 1024]⟩
abbrev S1024x3584 : Shape := ⟨2, ![1024, 3584]⟩
abbrev S3584 : Shape := ⟨1, ![3584]⟩
abbrev S1x8x32x32x3584 : Shape := ⟨5, ![1, 8, 32, 32, 3584]⟩
abbrev S1x1x1x1x3584 : Shape := ⟨5, ![1, 1, 1, 1, 3584]⟩
abbrev S1x8x32x32x14x4x8x8 : Shape := ⟨8, ![1, 8, 32, 32, 14, 4, 8, 8]⟩
abbrev S1x8x4x32x8x32x8x14 : Shape := ⟨8, ![1, 8, 4, 32, 8, 32, 8, 14]⟩
abbrev S1x32x256x256x14 : Shape := ⟨5, ![1, 32, 256, 256, 14]⟩

abbrev nBuf : Space → Nat
  | .hbm => 10
  | .vmem => 0
  | .smem => 0
  | _ => 0

abbrev bufTy : (tb : Table) → Fin (tcTables nBuf tb) → BufTy
  | .hbm, ⟨0, _⟩ => ⟨S1x8x32x32x1024, .f32⟩
  | .hbm, ⟨1, _⟩ => ⟨S1024x3584, .f32⟩
  | .hbm, ⟨2, _⟩ => ⟨S3584, .f32⟩
  | .hbm, ⟨3, _⟩ => ⟨S1x8x32x32x3584, .f32⟩
  | .hbm, ⟨4, _⟩ => ⟨S1x1x1x1x3584, .f32⟩
  | .hbm, ⟨5, _⟩ => ⟨S1x8x32x32x3584, .f32⟩
  | .hbm, ⟨6, _⟩ => ⟨S1x8x32x32x3584, .f32⟩
  | .hbm, ⟨7, _⟩ => ⟨S1x8x32x32x14x4x8x8, .f32⟩
  | .hbm, ⟨8, _⟩ => ⟨S1x8x4x32x8x32x8x14, .f32⟩
  | .hbm, ⟨9, _⟩ => ⟨S1x32x256x256x14, .f32⟩
  | _, _ => ⟨S1x8x32x32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S3584_S1x1x1x1x3584_4 : S3584.BroadcastsInDim S1x1x1x1x3584 (![4] : Fin 1 → Fin S1x1x1x1x3584.rank)
  bcast_S1x1x1x1x3584_S1x8x32x32x3584_0_1_2_3_4 : S1x1x1x1x3584.BroadcastsInDim S1x8x32x32x3584 (![0, 1, 2, 3, 4] : Fin 5 → Fin S1x8x32x32x3584.rank)
  shapeCasts_S1x8x32x32x3584_S1x8x32x32x14x4x8x8 : S1x8x32x32x3584.ShapeCasts S1x8x32x32x14x4x8x8
  transposes_S1x8x32x32x14x4x8x8_S1x8x4x32x8x32x8x14_0_1_5_2_6_3_7_4 : S1x8x32x32x14x4x8x8.Transposes [0, 1, 5, 2, 6, 3, 7, 4] S1x8x4x32x8x32x8x14
  shapeCasts_S1x8x4x32x8x32x8x14_S1x32x256x256x14 : S1x8x4x32x8x32x8x14.ShapeCasts S1x32x256x256x14
  dot_S1x8x32x32x1024_S1024x3584_S1x8x32x32x3584_4_0_0123_1_n_n_wf : DotDims.WF S1x8x32x32x1024 S1024x3584 S1x8x32x32x3584 [4] [0] [0, 1, 2, 3] [1] [] []

variable [Facts₀]

def dot_S1x8x32x32x1024_S1024x3584_S1x8x32x32x3584_4_0_0123_1_n_n : DotDims S1x8x32x32x1024 S1024x3584 S1x8x32x32x3584 where
  lhsContracting := [4]
  rhsContracting := [0]
  lhsNonContracting := [0, 1, 2, 3]
  rhsNonContracting := [1]
  lhsBatch := []
  rhsBatch := []
  wf := dot_S1x8x32x32x1024_S1024x3584_S1x8x32x32x3584_4_0_0123_1_n_n_wf

class Facts : Prop extends Facts₀ where

variable [Facts]
-- ==== Proof.Affine.lean ====
/-
  The mathematics both programs share, stated once over whole arrays.

  A voxel (b, t, h, w) of the [1, 8, 32, 32] grid is row ((b·8 + t)·32 + h)·32 + w of the flattened [8192, ·] matrix:
  a row-major reshape between [1, 8, 32, 32, n] and [8192, n] keeps the last coordinate and trades the four leading
  coordinates for that row number, in either direction. The per-voxel channel map is, at row r and output channel d,
      (∑ k, X[r, k] · W[k, d]) + B[0, d]
  on the extended reals. Two reshapes in a row are one reshape.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Affine

open Idealize.ShloMosaic Idealize.ShloMosaic.ValueIdx

variable {α : Type}

/-- The flattened row of voxel (b, t, h, w). -/
def voxelRow (b : Fin 1) (t : Fin 8) (h : Fin 32) (w : Fin 32) : Fin 8192 :=
  ⟨((b.val * 8 + t.val) * 32 + h.val) * 32 + w.val, by
    have := b.isLt; have := t.isLt; have := h.isLt; have := w.isLt; omega⟩

theorem voxelRow_val (b : Fin 1) (t : Fin 8) (h : Fin 32) (w : Fin 32) :
    (voxelRow b t h w).val = ((b.val * 8 + t.val) * 32 + h.val) * 32 + w.val := rfl

/-- The per-voxel channel map over the flattened matrix: row r of X against column d of W, plus the bias row at d. -/
def affineRows (X : (⟨2, ![8192, 1024]⟩ : Shape).Idx → EReal) (W : (⟨2, ![1024, 3584]⟩ : Shape).Idx → EReal)
    (B : (⟨2, ![1, 3584]⟩ : Shape).Idx → EReal) : (⟨2, ![8192, 3584]⟩ : Shape).Idx → EReal :=
  fun i => (∑ k : Fin 1024, X (ix2 (i 0) k) * W (ix2 k (i 1))) + B (ix2 (0 : Fin 1) (i 1))

/-- Flattening the four leading axes: the matrix at (row of the voxel, k) is the array at (b, t, h, w, k). -/
theorem flatten_apply {n : ℕ} (x : (⟨5, ![1, 8, 32, 32, n]⟩ : Shape).Idx → α)
    (hc : (⟨5, ![1, 8, 32, 32, n]⟩ : Shape).ShapeCasts ⟨2, ![8192, n]⟩)
    (b : Fin 1) (t : Fin 8) (h : Fin 32) (w : Fin 32) (k : Fin n) :
    shapeCast ⟨2, ![8192, n]⟩ x hc (ix2 (voxelRow b t h w) k) = x (ix5 b t h w k) := by
  refine shapeCast_apply x hc _ _ ?_
  rw [Shape.rowMajor_val_five, Shape.rowMajor_val_two]
  show ((((b.val * 8 + t.val) * 32 + h.val) * 32 + w.val) * n + k.val) = (voxelRow b t h w).val * n + k.val
  rw [voxelRow_val]

/-- Unflattening them: the array at (b, t, h, w, d) is the matrix at (row of the voxel, d). -/
theorem unflatten_apply {n : ℕ} (y : (⟨2, ![8192, n]⟩ : Shape).Idx → α)
    (hc : (⟨2, ![8192, n]⟩ : Shape).ShapeCasts ⟨5, ![1, 8, 32, 32, n]⟩)
    (b : Fin 1) (t : Fin 8) (h : Fin 32) (w : Fin 32) (d : Fin n) :
    shapeCast ⟨5, ![1, 8, 32, 32, n]⟩ y hc (ix5 b t h w d) = y (ix2 (voxelRow b t h w) d) := by
  refine shapeCast_apply y hc _ _ ?_
  rw [Shape.rowMajor_val_five, Shape.rowMajor_val_two]
  show (voxelRow b t h w).val * n + d.val = ((((b.val * 8 + t.val) * 32 + h.val) * 32 + w.val) * n + d.val)
  rw [voxelRow_val]

/-- A vector [n] as its one row [1, n]. -/
theorem asRow_apply {n : ℕ} (v : (⟨1, ![n]⟩ : Shape).Idx → α) (hc : (⟨1, ![n]⟩ : Shape).ShapeCasts ⟨2, ![1, n]⟩) (d : Fin n) :
    shapeCast ⟨2, ![1, n]⟩ v hc (ix2 (0 : Fin 1) d) = v (ix1 d) := by
  refine shapeCast_apply v hc _ _ ?_
  rw [Shape.rowMajor_val_one, Shape.rowMajor_val_two]
  show d.val = 0 * n + d.val
  omega

/-- Two reshapes in a row are the one reshape between the outer shapes. -/
theorem shapeCast_comp {s t u : Shape} (v : s.Idx → α) (h : s.ShapeCasts t) (h' : t.ShapeCasts u) (h'' : s.ShapeCasts u) :
    shapeCast u (shapeCast t v h) h' = shapeCast u v h'' :=
  funext fun j => congrArg v (by
    show Shape.reshapeEquiv _ (Shape.reshapeEquiv _ j) = Shape.reshapeEquiv _ j
    rw [Shape.reshapeEquiv_reshapeEquiv])

end Cert.Affine

end
-- ==== Proof.BlockValue.lean ====
/-
  What the kernel body stores for one tile of 512 voxel rows, read at an index.

  The body multiplies the tile's [512, 1024] block of rows by the whole [1024, 3584] weight matrix into a zero
  accumulator and adds the [1, 3584] bias row broadcast down the 512 rows. On the extended reals the product into a
  zero accumulator is the plain sum over the contracted channel, so the stored tile at (p, q) is
      (∑ k, x[p, k] · w[k, q]) + b[0, q].
-/
import proofs.«106271_j60670708023496_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-! ## The tile product's operand indices, axis by axis -/

/-- The left operand's row is the output's row. -/
theorem lhs_tile_0 (i : S512x3584.Idx) (q : dot_S512x1024_S1024x3584_S512x3584_1_0_0_1_n_n.contr.Idx) :
    (dot_S512x1024_S1024x3584_S512x3584_1_0_0_1_n_n.lhsIdx i q 0).val = (i 0).val := by
  unfold DotDims.lhsIdx
  rw [dif_neg (show ¬(0 : Fin S512x1024.rank) ∈ dot_S512x1024_S1024x3584_S512x3584_1_0_0_1_n_n.lhsBatch by decide), dif_pos (show (0 : Fin S512x1024.rank) ∈ dot_S512x1024_S1024x3584_S512x3584_1_0_0_1_n_n.lhsNonContracting by decide)]
  rfl
/-- The left operand's column is the contracted channel. -/
theorem lhs_tile_1 (i : S512x3584.Idx) (q : dot_S512x1024_S1024x3584_S512x3584_1_0_0_1_n_n.contr.Idx) :
    (dot_S512x1024_S1024x3584_S512x3584_1_0_0_1_n_n.lhsIdx i q 1).val = (q ⟨0, by decide⟩).val :=
  dot_S512x1024_S1024x3584_S512x3584_1_0_0_1_n_n.lhsIdx_val_of_single rfl i q
/-- The right operand's row is the contracted channel. -/
theorem rhs_tile_0 (i : S512x3584.Idx) (q : dot_S512x1024_S1024x3584_S512x3584_1_0_0_1_n_n.contr.Idx) :
    (dot_S512x1024_S1024x3584_S512x3584_1_0_0_1_n_n.rhsIdx i q 0).val = (q ⟨0, by decide⟩).val :=
  dot_S512x1024_S1024x3584_S512x3584_1_0_0_1_n_n.rhsIdx_val_of_single rfl i q
/-- The right operand's column is the output's column. -/
theorem rhs_tile_1 (i : S512x3584.Idx) (q : dot_S512x1024_S1024x3584_S512x3584_1_0_0_1_n_n.contr.Idx) :
    (dot_S512x1024_S1024x3584_S512x3584_1_0_0_1_n_n.rhsIdx i q 1).val = (i 1).val := by
  unfold DotDims.rhsIdx
  rw [dif_neg (show ¬(1 : Fin S1024x3584.rank) ∈ dot_S512x1024_S1024x3584_S512x3584_1_0_0_1_n_n.rhsBatch by decide), dif_pos (show (1 : Fin S1024x3584.rank) ∈ dot_S512x1024_S1024x3584_S512x3584_1_0_0_1_n_n.rhsNonContracting by decide)]
  rfl

/-! ## The tile product and the stored tile at an index -/

/-- The tile product into the zero accumulator, at (p, q): the sum over the 1024 input channels. -/
theorem tile_product_apply (x : FVec Ideal S512x1024 .bf16) (w : FVec Ideal S1024x3584 .bf16) (p : Fin 512) (q : Fin 3584) :
    matmul (F := Ideal) dot_S512x1024_S1024x3584_S512x3584_1_0_0_1_n_n none x w (constant (F := Ideal) S512x3584 .f32 0x00000000#32) (ix2 p q)
      = ∑ k : Fin 1024, x (ix2 p k) * w (ix2 k q) := by
  simp only [matmul]
  rw [Ideal.matmul_constant_zero_apply, ← Equiv.sum_comp (contrEquiv1 dot_S512x1024_S1024x3584_S512x3584_1_0_0_1_n_n 1024 rfl rfl).symm]
  refine Finset.sum_congr rfl fun k _ => ?_
  have hk := contrEquiv1_symm_val dot_S512x1024_S1024x3584_S512x3584_1_0_0_1_n_n 1024 rfl rfl k
  have el : dot_S512x1024_S1024x3584_S512x3584_1_0_0_1_n_n.lhsIdx (ix2 p q) ((contrEquiv1 dot_S512x1024_S1024x3584_S512x3584_1_0_0_1_n_n 1024 rfl rfl).symm k) = ix2 p k := funext fun a => Fin.ext (by
    match a with
    | ⟨0, _⟩ => exact lhs_tile_0 _ _
    | ⟨1, _⟩ => exact (lhs_tile_1 _ _).trans hk)
  have er : dot_S512x1024_S1024x3584_S512x3584_1_0_0_1_n_n.rhsIdx (ix2 p q) ((contrEquiv1 dot_S512x1024_S1024x3584_S512x3584_1_0_0_1_n_n 1024 rfl rfl).symm k) = ix2 k q := funext fun a => Fin.ext (by
    match a with
    | ⟨0, _⟩ => exact (rhs_tile_0 _ _).trans hk
    | ⟨1, _⟩ => exact rhs_tile_1 _ _)
  rw [el, er]

/-- The stored tile at (p, q): row p of the tile's rows against column q of the weights, plus the bias row at q. -/
theorem stored_tile_apply (x0 : Vec Ideal S512x1024 .bf16) (x1 : Vec Ideal S1024x3584 .bf16) (x2 : Vec Ideal S1x3584 .f32)
    (p : Fin 512) (q : Fin 3584) :
    k0_pay1 (F := Ideal) x0 x1 x2 (ix2 p q) = (∑ k : Fin 1024, x0 (ix2 p k) * x1 (ix2 k q)) + x2 (ix2 (0 : Fin 1) q) := by
  unfold k0_pay1
  rw [addf_apply, shapeCast_self, shapeCast_self, shapeCast_self, tile_product_apply, broadcastTo_1b_ab_apply]

end Cert.KernelIdeal.BlockValue

end
-- ==== Proof.ArrayValue.lean ====
/-
  From the tiles to the whole matrix.

  Grid point t handles voxel rows 512·t … 512·t + 511: its block of the row matrix is those rows (all 1024 input
  channels), its blocks of the weights and of the bias row are the whole arrays, and the block it writes back is rows
  512·t … 512·t + 511 of the [8192, 3584] result. So what point t writes back is the corresponding block of ONE
  whole-matrix function, `affineRows` of the three arrays the region reads; the sixteen blocks cover every row
  (row r lies in the block of point r / 512), hence after the run the result matrix IS that function.
-/
import proofs.«106271_j60670708023496_1_alg».proof.Proof.Gen.KernelIdeal.Frame
import proofs.«106271_j60670708023496_1_alg».proof.Proof.Affine
import proofs.«106271_j60670708023496_1_alg».proof.Proof.BlockValue
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.ArrayValue

open Cert.KernelIdeal Cert.KernelIdeal.Gen Cert.Affine

variable (m : (ℓ : Loc nD τ sig) → Buf (Elt Ideal) ℓ) (ρ : Dev nD → PrngReg)

/-- The flattened rows, the weights and the bias row, as the region finds them. -/
abbrev rowsArr (c : Dev nD) : S8192x1024.Idx → EReal := V m c main_v1
abbrev weightsArr (c : Dev nD) : S1024x3584.Idx → EReal := V m c main_v2
abbrev biasArr (c : Dev nD) : S1x3584.Idx → EReal := V m c main_v3

/-- The whole result matrix: every voxel row against the weights, plus the bias row. -/
abbrev product (c : Dev nD) : S8192x3584.Idx → EReal := affineRows (rowsArr m c) (weightsArr m c) (biasArr m c)

theorem origin : (![0, 0] : Fin 2 → Nat) = fun _ => 0 := funext fun a => by fin_cases a <;> rfl

/-- The block indices over the grid: the rows and the result move with the point along axis 0; the weights and the bias
    stay at block (0, 0). -/
theorem tile_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 16 := lt_of_lt_of_eq t.isLt N_0

/-! ## The input blocks at point t -/

/-- Row p of point t's block of rows is row 512·t + p of the row matrix. -/
theorem rows_block_apply (c : Dev nD) (t : Fin cfg0.N) (p : Fin 512) (k : Fin 1024) (r : Fin 8192)
    (hr : r.val = t.val * 512 + p.val) :
    (iblk m c 0 t : Vec Ideal S512x1024 .bf16) (ix2 p k) = rowsArr m c (ix2 r k) := by
  obtain ⟨e0, e1, -⟩ := tile_index t
  unfold iblk
  rw [View.read_apply]
  show V m c main_v1 _ = V m c main_v1 _
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * k.val = k.val; rw [e1]; omega

/-- Point t's block of the weights is the whole weight matrix. -/
theorem weights_block (c : Dev nD) (t : Fin cfg0.N) : (iblk m c 1 t : Vec Ideal S1024x3584 .bf16) = weightsArr m c := by
  obtain ⟨-, -, e2, e3, -⟩ := tile_index t
  funext x
  unfold iblk
  rw [View.read_apply]
  show V m c main_v2 _ = V m c main_v2 x
  congr 1
  funext a
  apply Fin.ext
  match a with
  | ⟨0, _⟩ => show win0_1.index t (0 : Fin 2) * 1024 + 1 * (x 0).val = (x 0).val; rw [e2]; omega
  | ⟨1, _⟩ => show win0_1.index t (1 : Fin 2) * 3584 + 1 * (x 1).val = (x 1).val; rw [e3]; omega

/-- Point t's block of the bias is the whole bias row. -/
theorem bias_block (c : Dev nD) (t : Fin cfg0.N) : (iblk m c 2 t : Vec Ideal S1x3584 .f32) = biasArr m c := by
  obtain ⟨-, -, -, -, e4, e5, -⟩ := tile_index t
  funext x
  unfold iblk
  rw [View.read_apply]
  show V m c main_v3 _ = V m c main_v3 x
  congr 1
  funext a
  apply Fin.ext
  match a with
  | ⟨0, _⟩ => show win0_2.index t (0 : Fin 2) * 1 + 1 * (x 0).val = (x 0).val; rw [e4]; omega
  | ⟨1, _⟩ => show win0_2.index t (1 : Fin 2) * 3584 + 1 * (x 1).val = (x 1).val; rw [e5]; omega

/-! ## What point t writes back -/

/-- The tile point t stores, at (p, q), is the whole result matrix at (512·t + p, q). -/
theorem tile_apply (c : Dev nD) (t : Fin cfg0.N) (p : Fin 512) (q : Fin 3584) (r : Fin 8192)
    (hr : r.val = t.val * 512 + p.val) :
    k0_pay1 (F := Ideal) (iblk m c 0 t) (iblk m c 1 t) (iblk m c 2 t) (ix2 p q) = product m c (ix2 r q) := by
  refine (BlockValue.stored_tile_apply (iblk m c 0 t) (iblk m c 1 t) (iblk m c 2 t) p q).trans ?_
  show _ = (∑ k : Fin 1024, rowsArr m c (ix2 r k) * weightsArr m c (ix2 k q)) + biasArr m c (ix2 (0 : Fin 1) q)
  rw [weights_block m c t, bias_block m c t]
  refine congrArg (· + biasArr m c (ix2 (0 : Fin 1) q)) (Finset.sum_congr rfl fun k _ => ?_)
  rw [rows_block_apply m c t p k r hr]

/-- WHAT POINT t WRITES BACK is block t of the whole result matrix. -/
theorem flushed_eq (c : Dev nD) (t : Fin cfg0.N) :
    (dats m 0 c).flushed 3 t = ((cfg0.win 3).blk t).view.read (Elt Ideal) (product m c) := by
  show (cfg0.win 3).cut (grid0.coords t) ((dats m 0 c).after 3 t) = _
  rw [after0_3]
  unfold out0_3
  rw [View.canon_unit_zero origin]
  simp only [View.ld_unit_zero (S := S512x1024) origin, View.ld_unit_zero (S := S1024x3584) origin, View.ld_unit_zero (S := S1x3584) origin]
  obtain ⟨-, -, -, -, -, -, e6, e7⟩ := tile_index t
  have ht := point_lt t
  funext j
  obtain ⟨p, q, rfl⟩ : ∃ (p : Fin 512) (q : Fin 3584), j = ix2 p q := ⟨j 0, j 1, eq_ix2 j⟩
  show k0_pay1 (F := Ideal) (iblk m c 0 t) (iblk m c 1 t) (iblk m c 2 t) (ix2 p q) = product m c (((cfg0.win 3).blk t).view.emb (ix2 p q))
  have hp := p.isLt
  refine (tile_apply m c t p q ⟨t.val * 512 + p.val, by omega⟩ rfl).trans ?_
  refine congrArg (product m c) ?_
  funext a
  apply Fin.ext
  match a with
  | ⟨0, _⟩ => show t.val * 512 + p.val = win0_3.index t (0 : Fin 2) * 512 + 1 * p.val; rw [e6]; omega
  | ⟨1, _⟩ => show q.val = win0_3.index t (1 : Fin 2) * 3584 + 1 * q.val; rw [e7]; omega

/-! ## The cover and the array after the run -/

/-- An index of the result matrix is in point t's block iff each coordinate is in the block's range on its axis. -/
theorem mem_tile (t : Fin cfg0.N) (i : S8192x3584.Idx) :
    i ∈ ((cfg0.win 3).blk t).view.set ↔ ∀ a : Fin 2, win0_3.index t a * S512x3584.size a ≤ (i a).val ∧ (i a).val < win0_3.index t a * S512x3584.size a + S512x3584.size a := by
  show i ∈ ((View.whole main_v4).slice (win0_3.rect t)).set ↔ _
  rw [View.set_slice_whole, Rect.mem_set_unit]
  exact Iff.rfl

/-- Every index of the result matrix is in the block of the point its row belongs to, and every point writes back. -/
theorem covered (i : S8192x3584.Idx) :
    ∃ t : Fin cfg0.N, (cfg0.win 3).flush t = true ∧ i ∈ ((cfg0.win 3).blk t).view.set := by
  have hi0 : (i 0).val < 8192 := (i 0).isLt
  have hi1 : (i 1).val < 3584 := (i 1).isLt
  obtain ⟨t, ht⟩ : ∃ t : Fin cfg0.N, t.val = (i 0).val / 512 :=
    ⟨⟨(i 0).val / 512, by rw [show cfg0.N = 16 from N_0]; omega⟩, rfl⟩
  obtain ⟨-, -, -, -, -, -, e6, e7⟩ := tile_index t
  refine ⟨t, flush0_3 t, ?_⟩
  rw [mem_tile]
  intro a
  match a with
  | ⟨0, _⟩ => show win0_3.index t (0 : Fin 2) * 512 ≤ (i 0).val ∧ (i 0).val < win0_3.index t (0 : Fin 2) * 512 + 512; rw [e6]; omega
  | ⟨1, _⟩ => show win0_3.index t (1 : Fin 2) * 3584 ≤ (i 1).val ∧ (i 1).val < win0_3.index t (1 : Fin 2) * 3584 + 3584; rw [e7]; omega

/-- THE RESULT MATRIX after the run is the whole-matrix function of the arrays the region reads. -/
theorem final (c : Dev nD) : (dats m 0 c).arrAt 3 cfg0.N = product m c :=
  (dats m 0 c).arrAt_eq_of_cover 3 (product m c) (fun t _ => flushed_eq m c t) covered

end Cert.KernelIdeal.ArrayValue

end
-- ==== Proof.KernelRun.lean ====
/-
  The kernel program's run, with its result named.

  After the region the program reshapes the [8192, 3584] result matrix to [1, 8, 32, 32, 14, 4, 8, 8], permutes the axes
  and reshapes to [1, 32, 256, 256, 14] (the pixel shuffle): the final array is `shuffle` of the result matrix, which
  after the run is `product`, the whole-matrix map of the arrays the region reads. Those arrays are what the three host
  lines before the region make of the arguments: the argument array flattened to rows (and rounded to bf16, the identity
  on the extended reals), the weights (rounded likewise), and the bias as one row.
-/
import proofs.«106271_j60670708023496_1_alg».proof.Proof.Gen.KernelIdeal.Frame
import proofs.«106271_j60670708023496_1_alg».proof.Proof.Affine
import proofs.«106271_j60670708023496_1_alg».proof.Proof.ArrayValue
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.RunValue

open Cert.KernelIdeal Cert.KernelIdeal.Gen Cert.Affine Cert.KernelIdeal.ArrayValue

variable (m : (ℓ : Loc nD τ sig) → Buf (Elt Ideal) ℓ) (ρ : Dev nD → PrngReg)

/-- The pixel shuffle of a [8192, 3584] matrix: reshape, permute the axes, reshape. -/
def shuffle (y : S8192x3584.Idx → EReal) : S1x32x256x256x14.Idx → EReal :=
  shapeCast S1x32x256x256x14 (transpose S1x8x4x32x8x32x8x14 [0, 1, 5, 2, 6, 3, 7, 4]
    (shapeCast S1x8x32x32x14x4x8x8 y Facts₀.shapeCasts_S8192x3584_S1x8x32x32x14x4x8x8)
    Facts₀.transposes_S1x8x32x32x14x4x8x8_S1x8x4x32x8x32x8x14_0_1_5_2_6_3_7_4)
    Facts₀.shapeCasts_S1x8x4x32x8x32x8x14_S1x32x256x256x14

/-! ## The arrays the region reads, from the arguments -/

theorem rows_entry (c : Dev nD) :
    rowsArr m c = truncf (F := Ideal) (φ := .f32) .bf16 (shapeCast S8192x1024 (m ((c : Thread nD τ).loc main_arg0)) Facts₀.shapeCasts_S1x8x32x32x1024_S8192x1024) Facts₀.bitsLt_bf16_f32 := by
  show StableHlo.after hostOps0 (fun b => m (c, b)) (Proc.devRef .tc main_v1) = _
  after_results
  rfl

theorem weights_entry (c : Dev nD) :
    weightsArr m c = truncf (F := Ideal) (φ := .f32) (s := S1024x3584) .bf16 (m ((c : Thread nD τ).loc main_arg1)) Facts₀.bitsLt_bf16_f32 := by
  show StableHlo.after hostOps0 (fun b => m (c, b)) (Proc.devRef .tc main_v2) = _
  after_results

theorem bias_entry (c : Dev nD) :
    biasArr m c = shapeCast S1x3584 (m ((c : Thread nD τ).loc main_arg2)) Facts₀.shapeCasts_S3584_S1x3584 := by
  show StableHlo.after hostOps0 (fun b => m (c, b)) (Proc.devRef .tc main_v3) = _
  after_results
  rfl

/-- Row (b, t, h, w) of the flattened rows, at channel k, is the argument at (b, t, h, w, k). -/
theorem rows_entry_apply (c : Dev nD) (b : Fin 1) (t : Fin 8) (h : Fin 32) (w : Fin 32) (k : Fin 1024) :
    rowsArr m c (ix2 (voxelRow b t h w) k) = (m ((c : Thread nD τ).loc main_arg0) : S1x8x32x32x1024.Idx → EReal) (ix5 b t h w k) := by
  rw [rows_entry]
  exact flatten_apply _ _ b t h w k

/-- The weights the region reads are the argument's. -/
theorem weights_entry_apply (c : Dev nD) (k : Fin 1024) (d : Fin 3584) :
    weightsArr m c (ix2 k d) = (m ((c : Thread nD τ).loc main_arg1) : S1024x3584.Idx → EReal) (ix2 k d) := by
  rw [weights_entry]
  rfl

/-- The bias row the region reads, at d, is the argument's bias at d. -/
theorem bias_entry_apply (c : Dev nD) (d : Fin 3584) :
    biasArr m c (ix2 (0 : Fin 1) d) = (m ((c : Thread nD τ).loc main_arg2) : S3584.Idx → EReal) (ix1 d) := by
  rw [bias_entry]
  exact asRow_apply _ _ d

/-! ## The lines after the region, and the run -/

/-- The program's result after the lines that follow the region: the pixel shuffle of the result matrix. -/
theorem tail_value (c : Dev nD) :
    Pipeline.afterTail₀ cfgs (dats m) 0 (V0 m) [hostOps1] c main_v7 = shuffle (product m c) := by
  have e : Pipeline.withArrays (cfgs 0).spec c (V0 m c) (fun w => (dats m 0 c).arrAt w (cfgs 0).N) (Proc.devRef .tc main_v4) = product m c :=
    (Pipeline.withArrays_arr spec0 launch0.win.arr_inj c _ _ 3).trans (ArrayValue.final m c)
  unfold Pipeline.afterTail₀
  show StableHlo.after hostOps1 _ (Proc.devRef .tc main_v7) = _
  after_results
  rw [e]
  rfl

/-- Every weakly fair execution of the kernel program terminates with its result at the pixel shuffle of the whole-matrix
    map, the arguments unchanged. -/
theorem run : θ_run defs (onTc (τ := τ) (main (F := Ideal))) ⟨m, fun _ => 0, ρ⟩ fun r => ∀ c : Dev nD,
      r.2.mem ((c.tc : Thread nD τ).loc main_v7) = shuffle (product m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v7 (Pipeline.mem_restRefs_of main_v7 (by decide) (by decide))).trans (tail_value m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.RefValue.lean ====
/-
  The reference's per-voxel map, read at an index, and as a reshape of the flattened matrix.

  The reference contracts the channel axis of the [1, 8, 32, 32, 1024] array with the weights and adds the bias
  broadcast over the four leading axes: at (b, t, h, w, d) it is (∑ k, x[b, t, h, w, k] · W[k, d]) + bias[d]. That is
  the flattened matrix's value at (row of the voxel, d), so the reference's [1, 8, 32, 32, 3584] array is the row-major
  reshape of `affineRows` of any matrix X, weights and bias row that hold the same numbers.
-/
import proofs.«106271_j60670708023496_1_alg».proof.Proof.Gen.ReferenceIdeal.Run
import proofs.«106271_j60670708023496_1_alg».proof.Proof.Affine
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.Affine Idealize.ShloMosaic Idealize.ShloMosaic.ValueIdx

/-- The reference's array before the pixel shuffle: the contraction plus the broadcast bias. -/
def conv (a0 : S1x8x32x32x1024.Idx → EReal) (a1 : S1024x3584.Idx → EReal) (a2 : S3584.Idx → EReal) : S1x8x32x32x3584.Idx → EReal :=
  addf (F := Ideal) (φ := .f32) (Host.dotGeneral (F := Ideal) (φ₁ := .f32) (φ₂ := .f32) dot_S1x8x32x32x1024_S1024x3584_S1x8x32x32x3584_4_0_0123_1_n_n none a0 a1)
    (broadcastInDim S1x8x32x32x3584 ![0, 1, 2, 3, 4] Facts₀.bcast_S1x1x1x1x3584_S1x8x32x32x3584_0_1_2_3_4
      (broadcastInDim S1x1x1x1x3584 ![4] Facts₀.bcast_S3584_S1x1x1x1x3584_4 a2))

/-! ## The contraction's operand indices, axis by axis -/

theorem lhs_vox_0 (i : S1x8x32x32x3584.Idx) (q : dot_S1x8x32x32x1024_S1024x3584_S1x8x32x32x3584_4_0_0123_1_n_n.contr.Idx) : (dot_S1x8x32x32x1024_S1024x3584_S1x8x32x32x3584_4_0_0123_1_n_n.lhsIdx i q 0).val = (i 0).val := by
  unfold DotDims.lhsIdx
  rw [dif_neg (show ¬(0 : Fin S1x8x32x32x1024.rank) ∈ dot_S1x8x32x32x1024_S1024x3584_S1x8x32x32x3584_4_0_0123_1_n_n.lhsBatch by decide), dif_pos (show (0 : Fin S1x8x32x32x1024.rank) ∈ dot_S1x8x32x32x1024_S1024x3584_S1x8x32x32x3584_4_0_0123_1_n_n.lhsNonContracting by decide)]
  rfl
theorem lhs_vox_1 (i : S1x8x32x32x3584.Idx) (q : dot_S1x8x32x32x1024_S1024x3584_S1x8x32x32x3584_4_0_0123_1_n_n.contr.Idx) : (dot_S1x8x32x32x1024_S1024x3584_S1x8x32x32x3584_4_0_0123_1_n_n.lhsIdx i q 1).val = (i 1).val := by
  unfold DotDims.lhsIdx
  rw [dif_neg (show ¬(1 : Fin S1x8x32x32x1024.rank) ∈ dot_S1x8x32x32x1024_S1024x3584_S1x8x32x32x3584_4_0_0123_1_n_n.lhsBatch by decide), dif_pos (show (1 : Fin S1x8x32x32x1024.rank) ∈ dot_S1x8x32x32x1024_S1024x3584_S1x8x32x32x3584_4_0_0123_1_n_n.lhsNonContracting by decide)]
  rfl
theorem lhs_vox_2 (i : S1x8x32x32x3584.Idx) (q : dot_S1x8x32x32x1024_S1024x3584_S1x8x32x32x3584_4_0_0123_1_n_n.contr.Idx) : (dot_S1x8x32x32x1024_S1024x3584_S1x8x32x32x3584_4_0_0123_1_n_n.lhsIdx i q 2).val = (i 2).val := by
  unfold DotDims.lhsIdx
  rw [dif_neg (show ¬(2 : Fin S1x8x32x32x1024.rank) ∈ dot_S1x8x32x32x1024_S1024x3584_S1x8x32x32x3584_4_0_0123_1_n_n.lhsBatch by decide), dif_pos (show (2 : Fin S1x8x32x32x1024.rank) ∈ dot_S1x8x32x32x1024_S1024x3584_S1x8x32x32x3584_4_0_0123_1_n_n.lhsNonContracting by decide)]
  rfl
theorem lhs_vox_3 (i : S1x8x32x32x3584.Idx) (q : dot_S1x8x32x32x1024_S1024x3584_S1x8x32x32x3584_4_0_0123_1_n_n.contr.Idx) : (dot_S1x8x32x32x1024_S1024x3584_S1x8x32x32x3584_4_0_0123_1_n_n.lhsIdx i q 3).val = (i 3).val := by
  unfold DotDims.lhsIdx
  rw [dif_neg (show ¬(3 : Fin S1x8x32x32x1024.rank) ∈ dot_S1x8x32x32x1024_S1024x3584_S1x8x32x32x3584_4_0_0123_1_n_n.lhsBatch by decide), dif_pos (show (3 : Fin S1x8x32x32x1024.rank) ∈ dot_S1x8x32x32x1024_S1024x3584_S1x8x32x32x3584_4_0_0123_1_n_n.lhsNonContracting by decide)]
  rfl
theorem lhs_vox_4 (i : S1x8x32x32x3584.Idx) (q : dot_S1x8x32x32x1024_S1024x3584_S1x8x32x32x3584_4_0_0123_1_n_n.contr.Idx) : (dot_S1x8x32x32x1024_S1024x3584_S1x8x32x32x3584_4_0_0123_1_n_n.lhsIdx i q 4).val = (q ⟨0, by decide⟩).val :=
  dot_S1x8x32x32x1024_S1024x3584_S1x8x32x32x3584_4_0_0123_1_n_n.lhsIdx_val_of_single rfl i q
theorem rhs_vox_0 (i : S1x8x32x32x3584.Idx) (q : dot_S1x8x32x32x1024_S1024x3584_S1x8x32x32x3584_4_0_0123_1_n_n.contr.Idx) : (dot_S1x8x32x32x1024_S1024x3584_S1x8x32x32x3584_4_0_0123_1_n_n.rhsIdx i q 0).val = (q ⟨0, by decide⟩).val :=
  dot_S1x8x32x32x1024_S1024x3584_S1x8x32x32x3584_4_0_0123_1_n_n.rhsIdx_val_of_single rfl i q
theorem rhs_vox_1 (i : S1x8x32x32x3584.Idx) (q : dot_S1x8x32x32x1024_S1024x3584_S1x8x32x32x3584_4_0_0123_1_n_n.contr.Idx) : (dot_S1x8x32x32x1024_S1024x3584_S1x8x32x32x3584_4_0_0123_1_n_n.rhsIdx i q 1).val = (i 4).val := by
  unfold DotDims.rhsIdx
  rw [dif_neg (show ¬(1 : Fin S1024x3584.rank) ∈ dot_S1x8x32x32x1024_S1024x3584_S1x8x32x32x3584_4_0_0123_1_n_n.rhsBatch by decide), dif_pos (show (1 : Fin S1024x3584.rank) ∈ dot_S1x8x32x32x1024_S1024x3584_S1x8x32x32x3584_4_0_0123_1_n_n.rhsNonContracting by decide)]
  rfl

/-! ## The three stages at an index -/

/-- The contraction at voxel (b, t, h, w) and output channel d: the sum over the 1024 input channels. -/
theorem contraction_apply (a0 : S1x8x32x32x1024.Idx → EReal) (a1 : S1024x3584.Idx → EReal)
    (b : Fin 1) (t : Fin 8) (h : Fin 32) (w : Fin 32) (d : Fin 3584) :
    Host.dotGeneral (F := Ideal) (φ₁ := .f32) (φ₂ := .f32) dot_S1x8x32x32x1024_S1024x3584_S1x8x32x32x3584_4_0_0123_1_n_n none a0 a1 (ix5 b t h w d) = ∑ k : Fin 1024, a0 (ix5 b t h w k) * a1 (ix2 k d) := by
  simp only [Host.dotGeneral]
  rw [Ideal.dotGeneral_apply, ← Equiv.sum_comp (contrEquiv1 dot_S1x8x32x32x1024_S1024x3584_S1x8x32x32x3584_4_0_0123_1_n_n 1024 rfl rfl).symm]
  refine Finset.sum_congr rfl fun k _ => ?_
  have hk := contrEquiv1_symm_val dot_S1x8x32x32x1024_S1024x3584_S1x8x32x32x3584_4_0_0123_1_n_n 1024 rfl rfl k
  have el : dot_S1x8x32x32x1024_S1024x3584_S1x8x32x32x3584_4_0_0123_1_n_n.lhsIdx (ix5 b t h w d) ((contrEquiv1 dot_S1x8x32x32x1024_S1024x3584_S1x8x32x32x3584_4_0_0123_1_n_n 1024 rfl rfl).symm k) = ix5 b t h w k := funext fun a => Fin.ext (by
    match a with
    | ⟨0, _⟩ => exact lhs_vox_0 _ _
    | ⟨1, _⟩ => exact lhs_vox_1 _ _
    | ⟨2, _⟩ => exact lhs_vox_2 _ _
    | ⟨3, _⟩ => exact lhs_vox_3 _ _
    | ⟨4, _⟩ => exact (lhs_vox_4 _ _).trans hk)
  have er : dot_S1x8x32x32x1024_S1024x3584_S1x8x32x32x3584_4_0_0123_1_n_n.rhsIdx (ix5 b t h w d) ((contrEquiv1 dot_S1x8x32x32x1024_S1024x3584_S1x8x32x32x3584_4_0_0123_1_n_n 1024 rfl rfl).symm k) = ix2 k d := funext fun a => Fin.ext (by
    match a with
    | ⟨0, _⟩ => exact (rhs_vox_0 _ _).trans hk
    | ⟨1, _⟩ => exact rhs_vox_1 _ _)
  rw [el, er]

/-- The bias broadcast over the voxels, at (b, t, h, w, d): the bias at d. -/
theorem bias_apply (a2 : S3584.Idx → EReal) (b : Fin 1) (t : Fin 8) (h : Fin 32) (w : Fin 32) (d : Fin 3584) :
    broadcastInDim S1x8x32x32x3584 ![0, 1, 2, 3, 4] Facts₀.bcast_S1x1x1x1x3584_S1x8x32x32x3584_0_1_2_3_4
      (broadcastInDim S1x1x1x1x3584 ![4] Facts₀.bcast_S3584_S1x1x1x1x3584_4 a2) (ix5 b t h w d) = a2 (ix1 d) := by
  refine (broadcastInDim_apply _ Facts₀.bcast_S1x1x1x1x3584_S1x8x32x32x3584_0_1_2_3_4 _ (ix5 b t h w d)
    (ix5 (0 : Fin 1) (0 : Fin 1) (0 : Fin 1) (0 : Fin 1) d) (fun a => match a with
    | ⟨0, _⟩ => by show 0 = if (1 : Nat) = 1 then 0 else b.val; rw [if_pos rfl]
    | ⟨1, _⟩ => by show 0 = if (1 : Nat) = 1 then 0 else t.val; rw [if_pos rfl]
    | ⟨2, _⟩ => by show 0 = if (1 : Nat) = 1 then 0 else h.val; rw [if_pos rfl]
    | ⟨3, _⟩ => by show 0 = if (1 : Nat) = 1 then 0 else w.val; rw [if_pos rfl]
    | ⟨4, _⟩ => by show d.val = if (3584 : Nat) = 1 then 0 else d.val; rw [if_neg (by decide)])).trans ?_
  exact broadcastInDim_apply _ Facts₀.bcast_S3584_S1x1x1x1x3584_4 a2 _ (ix1 d) (fun a => match a with
    | ⟨0, _⟩ => by show d.val = if (3584 : Nat) = 1 then 0 else d.val; rw [if_neg (by decide)])

/-- The reference's map at (b, t, h, w, d). -/
theorem conv_apply (a0 : S1x8x32x32x1024.Idx → EReal) (a1 : S1024x3584.Idx → EReal) (a2 : S3584.Idx → EReal)
    (b : Fin 1) (t : Fin 8) (h : Fin 32) (w : Fin 32) (d : Fin 3584) :
    conv a0 a1 a2 (ix5 b t h w d) = (∑ k : Fin 1024, a0 (ix5 b t h w k) * a1 (ix2 k d)) + a2 (ix1 d) := by
  unfold conv
  rw [addf_apply, contraction_apply, bias_apply]

/-- The reference's array is the reshape of the flattened matrix's map, for any matrix, weights and bias row holding the
    same numbers. -/
theorem conv_eq_unflatten (a0 : S1x8x32x32x1024.Idx → EReal) (a1 : S1024x3584.Idx → EReal) (a2 : S3584.Idx → EReal)
    (X : (⟨2, ![8192, 1024]⟩ : Shape).Idx → EReal) (W : (⟨2, ![1024, 3584]⟩ : Shape).Idx → EReal)
    (B : (⟨2, ![1, 3584]⟩ : Shape).Idx → EReal)
    (hX : ∀ (b : Fin 1) (t : Fin 8) (h : Fin 32) (w : Fin 32) (k : Fin 1024), X (ix2 (voxelRow b t h w) k) = a0 (ix5 b t h w k))
    (hW : ∀ (k : Fin 1024) (d : Fin 3584), W (ix2 k d) = a1 (ix2 k d))
    (hB : ∀ d : Fin 3584, B (ix2 (0 : Fin 1) d) = a2 (ix1 d))
    (hc : (⟨2, ![8192, 3584]⟩ : Shape).ShapeCasts ⟨5, ![1, 8, 32, 32, 3584]⟩) :
    conv a0 a1 a2 = shapeCast ⟨5, ![1, 8, 32, 32, 3584]⟩ (affineRows X W B) hc := by
  funext i
  obtain ⟨b, t, h, w, d, rfl⟩ : ∃ (b : Fin 1) (t : Fin 8) (h : Fin 32) (w : Fin 32) (d : Fin 3584), i = ix5 b t h w d :=
    ⟨i 0, i 1, i 2, i 3, i 4, eq_ix5 i⟩
  rw [conv_apply]
  refine Eq.trans ?_ (unflatten_apply (affineRows X W B) hc b t h w d).symm
  show _ = (∑ k : Fin 1024, X (ix2 (voxelRow b t h w) k) * W (ix2 k d)) + B (ix2 (0 : Fin 1) d)
  rw [hB d]
  exact congrArg (· + a2 (ix1 d)) (Finset.sum_congr rfl fun k _ => by rw [hX b t h w k, hW k d])

end Cert.ReferenceIdeal.RefValue

end
-- ==== Proof.Bridge.lean ====
/-
  The two programs' results are one array.

  Both programs end with the same pixel shuffle (reshape to [1, 8, 32, 32, 14, 4, 8, 8], permute the axes, reshape to
  [1, 32, 256, 256, 14]). What goes into it is, in the kernel program, the [8192, 3584] result matrix reshaped, and in the
  reference the [1, 8, 32, 32, 3584] array reshaped. The reference's array is the row-major reshape of the kernel's
  matrix (`conv_eq_unflatten`, with the kernel's rows, weights and bias row read back to the arguments), and two
  reshapes in a row are one: so the two 8-axis arrays are equal, and the shared shuffle of them is too.
-/
import proofs.«106271_j60670708023496_1_alg».proof.Proof.KernelRun
import proofs.«106271_j60670708023496_1_alg».proof.Proof.RefValue

noncomputable section

open Idealize.ShloMosaic Idealize.ShloMosaic.TcCoe Idealize.SL.Sem Idealize.ShloMosaic.ValueIdx

namespace Cert.Proof.Bridge

open Cert.Affine Cert.KernelIdeal.ArrayValue Cert.KernelIdeal.RunValue

variable (m : (ℓ : Loc Cert.KernelIdeal.nD Cert.KernelIdeal.τ Cert.KernelIdeal.sig) → Buf (Elt Ideal) ℓ)

/-- The reference's array before the shuffle, of the kernel program's arguments, is the reshape of the kernel's result
    matrix. -/
theorem conv_eq (c : Dev Cert.KernelIdeal.nD)
    (hc : (⟨2, ![8192, 3584]⟩ : Shape).ShapeCasts ⟨5, ![1, 8, 32, 32, 3584]⟩) :
    Cert.ReferenceIdeal.RefValue.conv (m ((c.tc : Thread Cert.KernelIdeal.nD Cert.KernelIdeal.τ).loc Cert.KernelIdeal.main_arg0)) (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
      = shapeCast ⟨5, ![1, 8, 32, 32, 3584]⟩ (product m c) hc :=
  Cert.ReferenceIdeal.RefValue.conv_eq_unflatten _ _ _ (rowsArr m c) (weightsArr m c) (biasArr m c)
    (rows_entry_apply m c) (weights_entry_apply m c) (bias_entry_apply m c) hc

/-- The reference's result, of the kernel program's arguments, is the kernel program's result. -/
theorem reference_result (c : Dev Cert.KernelIdeal.nD) :
    shapeCast Cert.ReferenceIdeal.S1x32x256x256x14 (transpose Cert.ReferenceIdeal.S1x8x4x32x8x32x8x14 [0, 1, 5, 2, 6, 3, 7, 4]
      (shapeCast Cert.ReferenceIdeal.S1x8x32x32x14x4x8x8
        (Cert.ReferenceIdeal.RefValue.conv (m ((c.tc : Thread Cert.KernelIdeal.nD Cert.KernelIdeal.τ).loc Cert.KernelIdeal.main_arg0)) (m ((c.tc : Thread Cert.KernelIdeal.nD Cert.KernelIdeal.τ).loc Cert.KernelIdeal.main_arg1))
          (m ((c.tc : Thread Cert.KernelIdeal.nD Cert.KernelIdeal.τ).loc Cert.KernelIdeal.main_arg2)))
        Cert.ReferenceIdeal.Facts₀.shapeCasts_S1x8x32x32x3584_S1x8x32x32x14x4x8x8)
      Cert.ReferenceIdeal.Facts₀.transposes_S1x8x32x32x14x4x8x8_S1x8x4x32x8x32x8x14_0_1_5_2_6_3_7_4)
      Cert.ReferenceIdeal.Facts₀.shapeCasts_S1x8x4x32x8x32x8x14_S1x32x256x256x14
      = shuffle (product m c) := by
  have hc : (⟨2, ![8192, 3584]⟩ : Shape).ShapeCasts ⟨5, ![1, 8, 32, 32, 3584]⟩ := by decide
  rw [conv_eq m c hc,
    shapeCast_comp (product m c) hc Cert.ReferenceIdeal.Facts₀.shapeCasts_S1x8x32x32x3584_S1x8x32x32x14x4x8x8
      Cert.KernelIdeal.Facts₀.shapeCasts_S8192x3584_S1x8x32x32x14x4x8x8]
  rfl

end Cert.Proof.Bridge

end
-- ==== Proof.lean ====
/-
  The certificate: a 1x1x1 convolution (a per-voxel channel matmul with bias) followed by a 3-D pixel shuffle.

  The kernel program flattens the [1, 8, 32, 32, 1024] input to 8192 voxel rows, multiplies tiles of 512 rows by the
  [1024, 3584] weights on a grid of 16 points, adds the bias row, and pixel-shuffles the [8192, 3584] result; the
  reference contracts the channel axis directly (an einsum), adds the bias and applies the same shuffle. On the extended
  reals the two are one function of the arguments: the rounding of the matmul operands to bf16 is the identity there, a
  product into a zero accumulator is the plain sum over the channel, and the sixteen row tiles are the rows of one matrix
  whose reshape is the reference's array. The finiteness of the inputs is not needed: the two sides are the same sums
  of the same products, term by term, and the same bias added.

  The three frames are the generated ones (the reference's is its generated run with the result dropped); the ideal pass
  rewrote nothing, so `preserves` is trivial; `algebraic` joins the kernel program's run (Proof/KernelRun.lean) with the
  reference's generated run through Proof/Bridge.lean.
-/
import proofs.«106271_j60670708023496_1_alg».proof.Defs
import proofs.«106271_j60670708023496_1_alg».proof.Proof.Gen.Kernel
import proofs.«106271_j60670708023496_1_alg».proof.Proof.Gen.Kernel.Skeleton
import proofs.«106271_j60670708023496_1_alg».proof.Proof.Gen.Kernel.Launch
import proofs.«106271_j60670708023496_1_alg».proof.Proof.Gen.Kernel.Points
import proofs.«106271_j60670708023496_1_alg».proof.Proof.Gen.Kernel.Frame
import proofs.«106271_j60670708023496_1_alg».proof.Proof.Gen.KernelIdeal
import proofs.«106271_j60670708023496_1_alg».proof.Proof.Gen.KernelIdeal.Skeleton
import proofs.«106271_j60670708023496_1_alg».proof.Proof.Gen.KernelIdeal.Launch
import proofs.«106271_j60670708023496_1_alg».proof.Proof.Gen.KernelIdeal.Points
import proofs.«106271_j60670708023496_1_alg».proof.Proof.Gen.KernelIdeal.Frame
import proofs.«106271_j60670708023496_1_alg».proof.Proof.Gen.ReferenceIdeal
import proofs.«106271_j60670708023496_1_alg».proof.Proof.Gen.Pre_finite_inputs
import proofs.«106271_j60670708023496_1_alg».proof.Proof.Gen.ReferenceIdeal.Run
import proofs.«106271_j60670708023496_1_alg».proof.Proof.KernelRun
import proofs.«106271_j60670708023496_1_alg».proof.Proof.RefValue
import proofs.«106271_j60670708023496_1_alg».proof.Proof.Bridge
import Idealize.ShloMosaic.Adequacy
import Idealize.ShloMosaic.Init

noncomputable section

namespace Cert.Proof

open Idealize.ShloMosaic Idealize.SL.Sem

/-- The word-level kernel program runs and keeps its arguments: the generated frame. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and keeps its arguments: its generated run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- On the extended reals both programs end with the pixel shuffle of the per-voxel affine map of the arguments. -/
theorem algebraic : Cert.algebraic_KernelIdeal_ReferenceIdeal := by
  intro m ρ m' ρ' _ hagree
  refine ⟨fun c => Cert.KernelIdeal.RunValue.shuffle (Cert.KernelIdeal.ArrayValue.product m c),
    Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.Proof.Bridge.reference_result m c

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
